-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.TwoLayer.lean ====
/-
  Two graph layers with a shared neighbour aggregation, at the extended reals, index by index.

  A layer takes the node features `h` and their aggregate `a` (both [100000 × 64]), two weight matrices [64 × 64] and a
  bias [64]; its entry (p, q) is `act (Σ_k h[p,k]·Ws[k,q] + Σ_k a[p,k]·Wn[k,q] + b[q])`. The first layer's activation
  is the rectifier `max s 0` (the zero spelt as the zero word's value, as both programs spell it), the second has
  none. The aggregation `A` (gather rows by source node, add them up by destination node, scale by the inverse
  in-degree) is the SAME function of the features in both layers and on both sides of the claim, so it stays a
  parameter here: nothing below looks inside it.
-/
import proofs.«121556_j89850715833230_1_alg».proof.Proof.LibSageSpec

noncomputable section

namespace Cert.Sage

open Idealize.ShloMosaic Idealize.ShloMosaic.SageSpec Idealize.ShloMosaic.ValueIdx

/-- Node features: one row of 64 per node. -/
abbrev Feat : Type := Mat 100000 64
/-- A weight matrix. -/
abbrev Wt : Type := Mat 64 64

/-- The rectifier: the larger of `s` and zero, zero being what the zero word denotes. -/
def reluAt (s : EReal) : EReal := max s (Ideal.ofBits .f32 0x00000000#32)

/-- One layer: `act (h · Ws + a · Wn + b)`, the two products added first and the bias last. -/
def layer (act : EReal → EReal) (h a : Feat) (Ws Wn : Wt) (b : Fin 64 → EReal) : Feat :=
  sageF act h a Ws Wn b

theorem layer_apply (act : EReal → EReal) (h a : Feat) (Ws Wn : Wt) (b : Fin 64 → EReal) (p : Fin 100000) (q : Fin 64) :
    layer act h a Ws Wn b (ix2 p q) = act (rowDot h Ws p q + rowDot a Wn p q + b q) := rfl

/-- Two row-by-column sums agree when the rows agree entry by entry and the columns do. -/
theorem rowDot_congr {n n' k m : Nat} (a : Mat n k) (a' : Mat n' k) (w w' : Mat k m) (p : Fin n) (p' : Fin n') (q : Fin m)
    (ha : ∀ j : Fin k, a (ix2 p j) = a' (ix2 p' j)) (hw : ∀ j : Fin k, w (ix2 j q) = w' (ix2 j q)) :
    rowDot a w p q = rowDot a' w' p' q :=
  Finset.sum_congr rfl fun j _ => by rw [ha j, hw j]

/-- The hidden features: the rectified first layer of `x` and its aggregate. -/
def hidden (A : Feat → Feat) (x : Feat) (Ws Wn : Wt) (b : Fin 64 → EReal) : Feat :=
  layer reluAt x (A x) Ws Wn b

/-- Both layers: the second, without activation, of the hidden features and THEIR aggregate. -/
def twoLayer (A : Feat → Feat) (x : Feat) (Ws1 Wn1 : Wt) (b1 : Fin 64 → EReal) (Ws2 Wn2 : Wt) (b2 : Fin 64 → EReal) : Feat :=
  layer id (hidden A x Ws1 Wn1 b1) (A (hidden A x Ws1 Wn1 b1)) Ws2 Wn2 b2

end Cert.Sage

end
-- ==== Proof.KernelBlock.lean ====
/-
  What one grid point of each kernel region leaves in its output block, entry by entry.

  Both kernel bodies load a [10000 × 64] block of the features `x0`, the same block of their aggregate `x1`, the two
  whole weight matrices `x2`, `x3` and the bias row `x4` ([1 × 64]), and store
  `(x0 · x2 + x1 · x3) + x4` — the first region rectified against zero, the second not. The two products go through
  the matrix unit into a zero accumulator with rows-by-columns dimension numbers, so entry (p, q) of each is row p
  against column q; a change of float format is the identity on the extended reals; the bias row is broadcast along
  the rows.
-/
import proofs.«121556_j89850715833230_1_alg».proof.Proof.Gen.KernelIdeal.Frame
import proofs.«121556_j89850715833230_1_alg».proof.Proof.TwoLayer
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe
open Idealize.ShloMosaic.SageSpec Idealize.ShloMosaic.ValueIdx Cert.Sage

/-! ## The matrix unit's dimension numbers are the plain ones -/

theorem lhsK_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsK_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsK_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsK_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- One contracted axis of extent 64; the left operand read at (row, κ), the right at (κ, column). -/
theorem plainK : PlainDot dot_S10000x64_S64x64_S10000x64_1_0_0_1_n_n where
  rank := rfl
  size := fun _ => rfl
  l0 := lhsK_0
  l1 := fun i q _ => lhsK_1 i q
  r0 := fun i q _ => rhsK_0 i q
  r1 := rhsK_1

/-! ## The two payloads at an entry -/

/-- The bias row broadcast along the rows, at (p, q): the row's entry q. -/
theorem biasRow_at (x4 : Vec Ideal S1x64 .f32) (h : S1x64.ShapeCasts S1x64) (hb : S1x64.Broadcasts S10000x64) (p : Fin 10000) (q : Fin 64) :
    broadcastTo S10000x64 (shapeCast S1x64 x4 h) hb (ix2 p q) = x4 (ix2 0 q) := by
  rw [shapeCast_self]
  refine broadcastTo_apply x4 hb (ix2 p q) (ix2 0 q) fun a => ?_
  match a with
  | ⟨0, _⟩ => show (0 : Nat) = if (1 : Nat) = 1 then 0 else _; rw [if_pos rfl]
  | ⟨1, _⟩ => show q.val = if (64 : Nat) = 1 then 0 else _; rw [if_neg (by decide)]; rfl

/-- Region 0's stored value at (p, q): the rectified sum of the two row-by-column products and the bias entry. -/
theorem pay0_at (x0 x1 : Vec Ideal S10000x64 .f32) (x2 x3 : Vec Ideal S64x64 .f32) (x4 : Vec Ideal S1x64 .f32) (p : Fin 10000) (q : Fin 64) :
    k0_pay1 (F := Ideal) x0 x1 x2 x3 x4 (ix2 p q) = reluAt (rowDot x0 x2 p q + rowDot x1 x3 p q + x4 (ix2 0 q)) := by
  unfold k0_pay1
  show max ((FloatOps.matmul (F := Ideal) dot_S10000x64_S64x64_S10000x64_1_0_0_1_n_n none _ _ (constant (F := Ideal) S10000x64 .f32 0x00000000#32) (ix2 p q)
      + FloatOps.matmul (F := Ideal) dot_S10000x64_S64x64_S10000x64_1_0_0_1_n_n none _ _ (constant (F := Ideal) S10000x64 .f32 0x00000000#32) (ix2 p q))
      + broadcastTo S10000x64 (shapeCast S1x64 x4 _) _ (ix2 p q) : EReal) (Ideal.ofBits .f32 0x00000000#32) = _
  rw [matmul_zero_at plainK, matmul_zero_at plainK, biasRow_at, shapeCast_self]
  rfl

/-- Region 1's stored value at (p, q): the same sum, not rectified. -/
theorem pay1_at (x0 x1 : Vec Ideal S10000x64 .f32) (x2 x3 : Vec Ideal S64x64 .f32) (x4 : Vec Ideal S1x64 .f32) (p : Fin 10000) (q : Fin 64) :
    k1_pay1 (F := Ideal) x0 x1 x2 x3 x4 (ix2 p q) = rowDot x0 x2 p q + rowDot x1 x3 p q + x4 (ix2 0 q) := by
  unfold k1_pay1
  show (FloatOps.matmul (F := Ideal) dot_S10000x64_S64x64_S10000x64_1_0_0_1_n_n none _ _ (constant (F := Ideal) S10000x64 .f32 0x00000000#32) (ix2 p q)
      + FloatOps.matmul (F := Ideal) dot_S10000x64_S64x64_S10000x64_1_0_0_1_n_n none _ _ (constant (F := Ideal) S10000x64 .f32 0x00000000#32) (ix2 p q))
      + broadcastTo S10000x64 (shapeCast S1x64 x4 _) _ (ix2 p q) = _
  rw [matmul_zero_at plainK, matmul_zero_at plainK, biasRow_at, shapeCast_self, shapeCast_self]
  rfl

end Cert.KernelIdeal.Hand

end
-- ==== Proof.KernelLayer.lean ====
/-
  Each kernel region as ONE function of the arrays it is entered with.

  A region walks ten grid points; point `t` fetches rows `10000 t … 10000 t + 9999` of the features and of their
  aggregate, the two whole weight matrices and the bias row, and writes its [10000 × 64] result to the same rows of the
  result array. Entry (p, q) of that block depends on row p of the two fetched blocks only, so it IS entry
  `(10000 t + p, q)` of the layer computed on the whole arrays; the ten blocks tile the result array, which therefore
  ends holding the layer of the region's entry arrays. Stated at any entry contents `V`, as the generated frame states
  its regions: the run instantiates it per region.
-/
import proofs.«121556_j89850715833230_1_alg».proof.Proof.KernelBlock

set_option maxRecDepth 16384

noncomputable section

namespace Cert.KernelIdeal.Hand

open Cert.KernelIdeal Cert.KernelIdeal.Gen Idealize.ShloMosaic Idealize.ShloMosaic.TcCoe Idealize.SL.Sem
open Idealize.ShloMosaic.SageSpec Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its ten grid points: the feature, aggregate and output windows are at
    block (t, 0), the weight matrices and the bias row at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `10000 t + p` of the array. -/
def row0 (t : Fin cfg0.N) (p : Fin 10000) : Fin 100000 :=
  ⟨t.val * 10000 + p.val, by have ht : t.val < 10 := lt_of_lt_of_eq t.isLt N_0; have := p.isLt; omega⟩

/-- What region 0 leaves in its result array: the layer of the arrays it is entered with. -/
def G0 (c : Dev nD) : Feat :=
  layer reluAt (V c main_arg0) (V c main_v23) (V c main_arg3) (V c main_arg4) (fun q => (V c main_v24 : S1x64.Idx → EReal) (ix2 0 q))

/-- A row block of the features read at (p, k). -/
theorem iblk0_0_at (c : Dev nD) (t : Fin cfg0.N) (p : Fin 10000) (k : Fin 64) :
    (iblk0 V c 0 t : Vec Ideal S10000x64 .f32) (ix2 p k) = (V c main_arg0 : Feat) (ix2 (row0 t p) k) := by
  unfold iblk0
  rw [View.read_apply]
  show V c main_arg0 _ = V c main_arg0 _
  refine congrArg (V c main_arg0) (funext fun a => Fin.ext ?_)
  obtain ⟨e0, e1, -⟩ := idx0 t
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The same row block of the aggregate. -/
theorem iblk0_1_at (c : Dev nD) (t : Fin cfg0.N) (p : Fin 10000) (k : Fin 64) :
    (iblk0 V c 1 t : Vec Ideal S10000x64 .f32) (ix2 p k) = (V c main_v23 : Feat) (ix2 (row0 t p) k) := by
  unfold iblk0
  rw [View.read_apply]
  show V c main_v23 _ = V c main_v23 _
  refine congrArg (V c main_v23) (funext fun a => Fin.ext ?_)
  obtain ⟨-, -, e0, e1, -⟩ := idx0 t
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The weight matrices and the bias row are whole blocks: read where the array is. -/
theorem iblk0_2_at (c : Dev nD) (t : Fin cfg0.N) (k q : Fin 64) :
    (iblk0 V c 2 t : Vec Ideal S64x64 .f32) (ix2 k q) = (V c main_arg3 : Wt) (ix2 k q) := by
  unfold iblk0
  rw [View.read_apply]
  show V c main_arg3 _ = V c main_arg3 _
  refine congrArg (V c main_arg3) (funext fun a => Fin.ext ?_)
  obtain ⟨-, -, -, -, e0, e1, -⟩ := idx0 t
  match a with
  | ⟨0, _⟩ => show win0_2.index t (0 : Fin 2) * 64 + 1 * k.val = k.val; rw [e0]; omega
  | ⟨1, _⟩ => show win0_2.index t (1 : Fin 2) * 64 + 1 * q.val = q.val; rw [e1]; omega
theorem iblk0_3_at (c : Dev nD) (t : Fin cfg0.N) (k q : Fin 64) :
    (iblk0 V c 3 t : Vec Ideal S64x64 .f32) (ix2 k q) = (V c main_arg4 : Wt) (ix2 k q) := by
  unfold iblk0
  rw [View.read_apply]
  show V c main_arg4 _ = V c main_arg4 _
  refine congrArg (V c main_arg4) (funext fun a => Fin.ext ?_)
  obtain ⟨-, -, -, -, -, -, e0, e1, -⟩ := idx0 t
  match a with
  | ⟨0, _⟩ => show win0_3.index t (0 : Fin 2) * 64 + 1 * k.val = k.val; rw [e0]; omega
  | ⟨1, _⟩ => show win0_3.index t (1 : Fin 2) * 64 + 1 * q.val = q.val; rw [e1]; omega
theorem iblk0_4_at (c : Dev nD) (t : Fin cfg0.N) (q : Fin 64) :
    (iblk0 V c 4 t : Vec Ideal S1x64 .f32) (ix2 0 q) = (V c main_v24 : S1x64.Idx → EReal) (ix2 0 q) := by
  unfold iblk0
  rw [View.read_apply]
  show V c main_v24 _ = V c main_v24 _
  refine congrArg (V c main_v24) (funext fun a => Fin.ext ?_)
  obtain ⟨-, -, -, -, -, -, -, -, e0, e1, -⟩ := idx0 t
  match a with
  | ⟨0, _⟩ => show win0_4.index t (0 : Fin 2) * 1 + 1 * 0 = 0; rw [e0]
  | ⟨1, _⟩ => show win0_4.index t (1 : Fin 2) * 64 + 1 * q.val = q.val; rw [e1]; omega

/-- What point `t` stores, at (p, q), is the layer at row `10000 t + p`. -/
theorem point0_at (c : Dev nD) (t : Fin cfg0.N) (p : Fin 10000) (q : Fin 64) :
    k0_pay1 (F := Ideal) (iblk0 V c 0 t) (iblk0 V c 1 t) (iblk0 V c 2 t) (iblk0 V c 3 t) (iblk0 V c 4 t) (ix2 p q)
      = G0 V c (ix2 (row0 t p) q) := by
  refine (pay0_at (iblk0 V c 0 t) (iblk0 V c 1 t) (iblk0 V c 2 t) (iblk0 V c 3 t) (iblk0 V c 4 t) p q).trans ?_
  unfold G0
  rw [layer_apply, iblk0_4_at V c t q,
    rowDot_congr (iblk0 V c 0 t) (V c main_arg0 : Feat) (iblk0 V c 2 t) (V c main_arg3 : Wt) p (row0 t p) q
      (fun j => iblk0_0_at V c t p j) (fun j => iblk0_2_at V c t j q),
    rowDot_congr (iblk0 V c 1 t) (V c main_v23 : Feat) (iblk0 V c 3 t) (V c main_arg4 : Wt) p (row0 t p) q
      (fun j => iblk0_1_at V c t p j) (fun j => iblk0_3_at V c t j q)]

/-- WHAT POINT `t` WRITES BACK is its block of `G0`. -/
theorem flushed0 (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  rw [View.read_apply]
  obtain ⟨-, -, -, -, -, -, -, -, -, -, e0, e1⟩ := idx0 t
  have hemb : ((cfg0.win 5).blk t).view.emb j = ix2 (row0 t (j 0)) (j 1) := funext fun a => Fin.ext (by
    match a with
    | ⟨0, _⟩ => show win0_5.index t (0 : Fin 2) * 10000 + 1 * (j 0).val = t.val * 10000 + (j 0).val; rw [e0]; omega
    | ⟨1, _⟩ => show win0_5.index t (1 : Fin 2) * 64 + 1 * (j 1).val = (j 1).val; rw [e1]; omega)
  rw [hemb]
  exact (congrArg _ (eq_ix2 j)).trans (point0_at V c t (j 0) (j 1))

/-- An index of the result array is in point `t`'s block iff its row is among the block's ten thousand. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v25).slice (win0_5.rect t)).set ↔ _
  rw [View.set_slice_whole, Rect.mem_set_unit]
  exact Iff.rfl

/-- The ten row blocks cover the array: row `r` is in block `r / 10000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have htv : t.val = (i 0).val / 10000 := rfl
  obtain ⟨-, -, -, -, -, -, -, -, -, -, e0, e1⟩ := idx0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; rw [e0, htv]; omega
  | ⟨1, _⟩ => show win0_5.index t (1 : Fin 2) * 64 ≤ (i 1).val ∧ (i 1).val < win0_5.index t (1 : Fin 2) * 64 + 64; rw [e1]; omega

/-- THE RESULT ARRAY after region 0: the layer of the arrays the region is entered with. -/
theorem final0 (c : Dev nD) : (dat0 (F := Ideal) V c).arrAt 5 cfg0.N = G0 V c :=
  (dat0 (F := Ideal) V c).arrAt_eq_of_cover 5 (G0 V c) (fun t _ => flushed0 V c t) (cover0)

/-! ## Region 1 -/

/-- The printed index maps of region 1, decided over its ten grid points: the feature, aggregate and output windows are at
    block (t, 0), the weight matrices and the bias row at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `10000 t + p` of the array. -/
def row1 (t : Fin cfg1.N) (p : Fin 10000) : Fin 100000 :=
  ⟨t.val * 10000 + p.val, by have ht : t.val < 10 := lt_of_lt_of_eq t.isLt N_1; have := p.isLt; omega⟩

/-- What region 1 leaves in its result array: the layer of the arrays it is entered with. -/
def G1 (c : Dev nD) : Feat :=
  layer id (V c main_v25) (V c main_v37) (V c main_arg6) (V c main_arg7) (fun q => (V c main_v38 : S1x64.Idx → EReal) (ix2 0 q))

/-- A row block of the features read at (p, k). -/
theorem iblk1_0_at (c : Dev nD) (t : Fin cfg1.N) (p : Fin 10000) (k : Fin 64) :
    (iblk1 V c 0 t : Vec Ideal S10000x64 .f32) (ix2 p k) = (V c main_v25 : Feat) (ix2 (row1 t p) k) := by
  unfold iblk1
  rw [View.read_apply]
  show V c main_v25 _ = V c main_v25 _
  refine congrArg (V c main_v25) (funext fun a => Fin.ext ?_)
  obtain ⟨e0, e1, -⟩ := idx1 t
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The same row block of the aggregate. -/
theorem iblk1_1_at (c : Dev nD) (t : Fin cfg1.N) (p : Fin 10000) (k : Fin 64) :
    (iblk1 V c 1 t : Vec Ideal S10000x64 .f32) (ix2 p k) = (V c main_v37 : Feat) (ix2 (row1 t p) k) := by
  unfold iblk1
  rw [View.read_apply]
  show V c main_v37 _ = V c main_v37 _
  refine congrArg (V c main_v37) (funext fun a => Fin.ext ?_)
  obtain ⟨-, -, e0, e1, -⟩ := idx1 t
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

/-- The weight matrices and the bias row are whole blocks: read where the array is. -/
theorem iblk1_2_at (c : Dev nD) (t : Fin cfg1.N) (k q : Fin 64) :
    (iblk1 V c 2 t : Vec Ideal S64x64 .f32) (ix2 k q) = (V c main_arg6 : Wt) (ix2 k q) := by
  unfold iblk1
  rw [View.read_apply]
  show V c main_arg6 _ = V c main_arg6 _
  refine congrArg (V c main_arg6) (funext fun a => Fin.ext ?_)
  obtain ⟨-, -, -, -, e0, e1, -⟩ := idx1 t
  match a with
  | ⟨0, _⟩ => show win1_2.index t (0 : Fin 2) * 64 + 1 * k.val = k.val; rw [e0]; omega
  | ⟨1, _⟩ => show win1_2.index t (1 : Fin 2) * 64 + 1 * q.val = q.val; rw [e1]; omega
theorem iblk1_3_at (c : Dev nD) (t : Fin cfg1.N) (k q : Fin 64) :
    (iblk1 V c 3 t : Vec Ideal S64x64 .f32) (ix2 k q) = (V c main_arg7 : Wt) (ix2 k q) := by
  unfold iblk1
  rw [View.read_apply]
  show V c main_arg7 _ = V c main_arg7 _
  refine congrArg (V c main_arg7) (funext fun a => Fin.ext ?_)
  obtain ⟨-, -, -, -, -, -, e0, e1, -⟩ := idx1 t
  match a with
  | ⟨0, _⟩ => show win1_3.index t (0 : Fin 2) * 64 + 1 * k.val = k.val; rw [e0]; omega
  | ⟨1, _⟩ => show win1_3.index t (1 : Fin 2) * 64 + 1 * q.val = q.val; rw [e1]; omega
theorem iblk1_4_at (c : Dev nD) (t : Fin cfg1.N) (q : Fin 64) :
    (iblk1 V c 4 t : Vec Ideal S1x64 .f32) (ix2 0 q) = (V c main_v38 : S1x64.Idx → EReal) (ix2 0 q) := by
  unfold iblk1
  rw [View.read_apply]
  show V c main_v38 _ = V c main_v38 _
  refine congrArg (V c main_v38) (funext fun a => Fin.ext ?_)
  obtain ⟨-, -, -, -, -, -, -, -, e0, e1, -⟩ := idx1 t
  match a with
  | ⟨0, _⟩ => show win1_4.index t (0 : Fin 2) * 1 + 1 * 0 = 0; rw [e0]
  | ⟨1, _⟩ => show win1_4.index t (1 : Fin 2) * 64 + 1 * q.val = q.val; rw [e1]; omega

/-- What point `t` stores, at (p, q), is the layer at row `10000 t + p`. -/
theorem point1_at (c : Dev nD) (t : Fin cfg1.N) (p : Fin 10000) (q : Fin 64) :
    k1_pay1 (F := Ideal) (iblk1 V c 0 t) (iblk1 V c 1 t) (iblk1 V c 2 t) (iblk1 V c 3 t) (iblk1 V c 4 t) (ix2 p q)
      = G1 V c (ix2 (row1 t p) q) := by
  refine (pay1_at (iblk1 V c 0 t) (iblk1 V c 1 t) (iblk1 V c 2 t) (iblk1 V c 3 t) (iblk1 V c 4 t) p q).trans ?_
  unfold G1
  rw [layer_apply, iblk1_4_at V c t q,
    rowDot_congr (iblk1 V c 0 t) (V c main_v25 : Feat) (iblk1 V c 2 t) (V c main_arg6 : Wt) p (row1 t p) q
      (fun j => iblk1_0_at V c t p j) (fun j => iblk1_2_at V c t j q),
    rowDot_congr (iblk1 V c 1 t) (V c main_v37 : Feat) (iblk1 V c 3 t) (V c main_arg7 : Wt) p (row1 t p) q
      (fun j => iblk1_1_at V c t p j) (fun j => iblk1_3_at V c t j q)]
  rfl

/-- WHAT POINT `t` WRITES BACK is its block of `G1`. -/
theorem flushed1 (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  rw [View.read_apply]
  obtain ⟨-, -, -, -, -, -, -, -, -, -, e0, e1⟩ := idx1 t
  have hemb : ((cfg1.win 5).blk t).view.emb j = ix2 (row1 t (j 0)) (j 1) := funext fun a => Fin.ext (by
    match a with
    | ⟨0, _⟩ => show win1_5.index t (0 : Fin 2) * 10000 + 1 * (j 0).val = t.val * 10000 + (j 0).val; rw [e0]; omega
    | ⟨1, _⟩ => show win1_5.index t (1 : Fin 2) * 64 + 1 * (j 1).val = (j 1).val; rw [e1]; omega)
  rw [hemb]
  exact (congrArg _ (eq_ix2 j)).trans (point1_at V c t (j 0) (j 1))

/-- An index of the result array is in point `t`'s block iff its row is among the block's ten thousand. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v39).slice (win1_5.rect t)).set ↔ _
  rw [View.set_slice_whole, Rect.mem_set_unit]
  exact Iff.rfl

/-- The ten row blocks cover the array: row `r` is in block `r / 10000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  have htv : t.val = (i 0).val / 10000 := rfl
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [e0, htv]; omega
  | ⟨1, _⟩ => show win1_5.index t (1 : Fin 2) * 64 ≤ (i 1).val ∧ (i 1).val < win1_5.index t (1 : Fin 2) * 64 + 64; rw [e1]; omega

/-- THE RESULT ARRAY after region 1: the layer of the arrays the region is entered with. -/
theorem final1 (c : Dev nD) : (dat1 (F := Ideal) V c).arrAt 5 cfg1.N = G1 V c :=
  (dat1 (F := Ideal) V c).arrAt_eq_of_cover 5 (G1 V c) (fun t _ => flushed1 V c t) (cover1)

end Cert.KernelIdeal.Hand

end
-- ==== Proof.Aggregate.lean ====
/-
  The neighbour aggregation, once per program. The kernel's @main and the reference's apply the same chain of host
  operations to the features (a row gather by source node, a scatter-add by destination node, a product with the
  inverse in-degree); each program spells it with its own shape records, and the two spellings are one function.
  Nothing in this certificate opens the chain: it is carried as one function of the features on both sides.
-/
import proofs.«121556_j89850715833230_1_alg».proof.Proof.Gen.KernelIdeal
import proofs.«121556_j89850715833230_1_alg».proof.Proof.Gen.ReferenceIdeal

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The neighbour aggregation as this program's host operations spell it: rows of `y` gathered at the source nodes
    (a negative index wrapped by the node count first), added up at the destination nodes into zeros, and every row
    scaled by the inverse in-degree (one over `max deg 1` where the degree, a scatter-add of ones, is positive, else
    zero). -/
def agg (src dst : (⟨S1600000, .i32⟩ : BufTy).Contents (Elt F)) (y : (⟨S100000x64, .f32⟩ : BufTy).Contents (Elt F)) :
    (⟨S100000x64, .f32⟩ : BufTy).Contents (Elt F) :=
  mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 y (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))

end Cert.KernelIdeal.Hand

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The neighbour aggregation as this program's host operations spell it: rows of `y` gathered at the source nodes
    (a negative index wrapped by the node count first), added up at the destination nodes into zeros, and every row
    scaled by the inverse in-degree (one over `max deg 1` where the degree, a scatter-add of ones, is positive, else
    zero). -/
def agg (src dst : (⟨S1600000, .i32⟩ : BufTy).Contents (Elt F)) (y : (⟨S100000x64, .f32⟩ : BufTy).Contents (Elt F)) :
    (⟨S100000x64, .f32⟩ : BufTy).Contents (Elt F) :=
  mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 y (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))

end Cert.ReferenceIdeal.Hand

namespace Cert.Sage

open Idealize.ShloMosaic

variable {F : FTy → Type} [FloatOps F]

/-- The two programs' aggregations are one function: the same operations over the same shapes and dimension numbers. -/
theorem agg_eq (src dst : (⟨Cert.KernelIdeal.S1600000, .i32⟩ : BufTy).Contents (Elt F))
    (y : (⟨Cert.KernelIdeal.S100000x64, .f32⟩ : BufTy).Contents (Elt F)) :
    Cert.KernelIdeal.Hand.agg src dst y = Cert.ReferenceIdeal.Hand.agg src dst y := rfl

end Cert.Sage

end
-- ==== Proof.KernelValue.lean ====
/-
  The kernel program's result array as the two-layer function of its arguments.

  @main is four stretches of host operations around two kernel regions. Each stretch is read off as a function of the
  buffer contents it starts from: the first three compute the inverse in-degree column, the first layer's aggregate of
  the features and the first bias as a row; the stretch between the regions computes the second layer's aggregate — the
  same chain of operations, now applied to the first region's result — and the second bias row. Each region leaves the
  layer of the arrays it is entered with. Composed along the boundaries, the result array holds both layers of the
  arguments, with the program's aggregation as the shared function.
-/
import proofs.«121556_j89850715833230_1_alg».proof.Proof.KernelLayer
import proofs.«121556_j89850715833230_1_alg».proof.Proof.Aggregate
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.SageSpec Idealize.ShloMosaic.ValueIdx Cert.Sage

/-! ## Each stretch of host operations, from any contents `Wv` -/

section Stretches

variable {F : FTy → Type} [FloatOps F] (Wv : Valuation τ sig (Elt F))

/-- The inverse in-degree of every node: the in-degree is a scatter-add of ones at the destinations; where it is
    positive the value is one over the larger of it and one, elsewhere zero. -/
def invDeg (dst : (⟨S1600000, .i32⟩ : BufTy).Contents (Elt F)) : (⟨S100000, .f32⟩ : BufTy).Contents (Elt F) :=
  select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))

/-- The same as a column, the layout the row scaling broadcasts from. -/
def invDegCol (dst : (⟨S1600000, .i32⟩ : BufTy).Contents (Elt F)) : (⟨S100000x1, .f32⟩ : BufTy).Contents (Elt F) :=
  broadcastInDim S100000x1 ![0] bcast_S100000_S100000x1_0 (invDeg dst)

/-- The aggregation, opened one level: gather at the (wrapped) sources, scatter-add at the destinations, scale the rows. -/
theorem agg_chain (src dst : (⟨S1600000, .i32⟩ : BufTy).Contents (Elt F)) (y : (⟨S100000x64, .f32⟩ : BufTy).Contents (Elt F)) :
    agg src dst y = mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 y (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (invDegCol dst)) := rfl

/-- The in-degree's positivity mask: a scatter-add of ones at the destinations, compared with zero. -/
theorem s0_v5 : StableHlo.after hostOps0 Wv (Proc.devRef .tc main_v5) = (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (Wv (Proc.devRef .tc main_arg2))) (broadcastInDim S1600000 ![] bcast_S_S1600000 (constant S_ .f32 0x3F800000#32))) (broadcastInDim S100000 ![] bcast_S_S100000 (constant S_ .f32 0x00000000#32))) := by
  after_results
/-- One over the larger of the in-degree and one. -/
theorem s0_v9 : StableHlo.after hostOps0 Wv (Proc.devRef .tc main_v9) = (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (Wv (Proc.devRef .tc main_arg2))) (broadcastInDim S1600000 ![] bcast_S_S1600000 (constant S_ .f32 0x3F800000#32))) (broadcastInDim S100000 ![] bcast_S_S100000 (constant S_ .f32 0x3F800000#32)))) := by
  after_results
theorem s0_cst4 : StableHlo.after hostOps0 Wv (Proc.devRef .tc main_cst_4) = (constant S_ .f32 0x00000000#32 : (⟨S_, .f32⟩ : BufTy).Contents (Elt F)) := by
  after_results
theorem s0_arg0 : StableHlo.after hostOps0 Wv (Proc.devRef .tc main_arg0) = Wv (Proc.devRef .tc main_arg0) := by after_results
theorem s0_arg1 : StableHlo.after hostOps0 Wv (Proc.devRef .tc main_arg1) = Wv (Proc.devRef .tc main_arg1) := by after_results
theorem s0_arg2 : StableHlo.after hostOps0 Wv (Proc.devRef .tc main_arg2) = Wv (Proc.devRef .tc main_arg2) := by after_results
theorem s0_arg3 : StableHlo.after hostOps0 Wv (Proc.devRef .tc main_arg3) = Wv (Proc.devRef .tc main_arg3) := by after_results
theorem s0_arg4 : StableHlo.after hostOps0 Wv (Proc.devRef .tc main_arg4) = Wv (Proc.devRef .tc main_arg4) := by after_results
theorem s0_arg5 : StableHlo.after hostOps0 Wv (Proc.devRef .tc main_arg5) = Wv (Proc.devRef .tc main_arg5) := by after_results
theorem s0_arg6 : StableHlo.after hostOps0 Wv (Proc.devRef .tc main_arg6) = Wv (Proc.devRef .tc main_arg6) := by after_results
theorem s0_arg7 : StableHlo.after hostOps0 Wv (Proc.devRef .tc main_arg7) = Wv (Proc.devRef .tc main_arg7) := by after_results
theorem s0_arg8 : StableHlo.after hostOps0 Wv (Proc.devRef .tc main_arg8) = Wv (Proc.devRef .tc main_arg8) := by after_results

/-- The inverse in-degree: that quotient where the degree is positive, zero elsewhere. -/
theorem s1_v10 : StableHlo.after hostOps0_1 Wv (Proc.devRef .tc main_v10)
    = (select (Wv (Proc.devRef .tc main_v5)) (Wv (Proc.devRef .tc main_v9)) (broadcastInDim S100000 ![] bcast_S_S100000 (id (Wv (Proc.devRef .tc main_cst_4)))) : (⟨S100000, .f32⟩ : BufTy).Contents (Elt F)) := by
  after_results
  try simp only [TRef.ofBuf, TRef.toBuf, cast_eq]
  try rfl
theorem s1_arg0 : StableHlo.after hostOps0_1 Wv (Proc.devRef .tc main_arg0) = Wv (Proc.devRef .tc main_arg0) := by after_results
theorem s1_arg1 : StableHlo.after hostOps0_1 Wv (Proc.devRef .tc main_arg1) = Wv (Proc.devRef .tc main_arg1) := by after_results
theorem s1_arg2 : StableHlo.after hostOps0_1 Wv (Proc.devRef .tc main_arg2) = Wv (Proc.devRef .tc main_arg2) := by after_results
theorem s1_arg3 : StableHlo.after hostOps0_1 Wv (Proc.devRef .tc main_arg3) = Wv (Proc.devRef .tc main_arg3) := by after_results
theorem s1_arg4 : StableHlo.after hostOps0_1 Wv (Proc.devRef .tc main_arg4) = Wv (Proc.devRef .tc main_arg4) := by after_results
theorem s1_arg5 : StableHlo.after hostOps0_1 Wv (Proc.devRef .tc main_arg5) = Wv (Proc.devRef .tc main_arg5) := by after_results
theorem s1_arg6 : StableHlo.after hostOps0_1 Wv (Proc.devRef .tc main_arg6) = Wv (Proc.devRef .tc main_arg6) := by after_results
theorem s1_arg7 : StableHlo.after hostOps0_1 Wv (Proc.devRef .tc main_arg7) = Wv (Proc.devRef .tc main_arg7) := by after_results
theorem s1_arg8 : StableHlo.after hostOps0_1 Wv (Proc.devRef .tc main_arg8) = Wv (Proc.devRef .tc main_arg8) := by after_results

/-- The inverse in-degree as a column. -/
theorem s2_v11 : StableHlo.after hostOps0_2 Wv (Proc.devRef .tc main_v11)
    = (broadcastInDim S100000x1 ![0] bcast_S100000_S100000x1_0 (Wv (Proc.devRef .tc main_v10)) : (⟨S100000x1, .f32⟩ : BufTy).Contents (Elt F)) := by
  after_results
set_option maxHeartbeats 2000000 in
/-- The first layer's aggregate: the chain applied to the features. -/
theorem s2_v23 : StableHlo.after hostOps0_2 Wv (Proc.devRef .tc main_v23)
    = (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (Wv (Proc.devRef .tc main_arg2))) (Host.gather gather_S100000x64_S1600000x1_S1600000x64_1_0_n_n_0_1_164 (Wv (Proc.devRef .tc main_arg0)) (broadcastInDim S1600000x1 ![0] bcast_S1600000_S1600000x1_0 (select (cmpi .slt (Wv (Proc.devRef .tc main_arg1)) (broadcastInDim S1600000 ![] bcast_S_S1600000 (constantI S_ 32 0#32))) (addi (Wv (Proc.devRef .tc main_arg1)) (broadcastInDim S1600000 ![] bcast_S_S1600000 (constantI S_ 32 100000#32))) (Wv (Proc.devRef .tc main_arg1)))))) (broadcastInDim S100000x64 ![0, 1] bcast_S100000x1_S100000x64_0_1 (broadcastInDim S100000x1 ![0] bcast_S100000_S100000x1_0 (Wv (Proc.devRef .tc main_v10)))) : (⟨S100000x64, .f32⟩ : BufTy).Contents (Elt F)) := by
  after_results_simp
/-- The first bias as a row. -/
theorem s2_v24 : StableHlo.after hostOps0_2 Wv (Proc.devRef .tc main_v24)
    = (shapeCast S1x64 (Wv (Proc.devRef .tc main_arg5)) shapeCasts_S64_S1x64 : (⟨S1x64, .f32⟩ : BufTy).Contents (Elt F)) := by
  after_results
  try rfl
theorem s2_arg0 : StableHlo.after hostOps0_2 Wv (Proc.devRef .tc main_arg0) = Wv (Proc.devRef .tc main_arg0) := by after_results
theorem s2_arg1 : StableHlo.after hostOps0_2 Wv (Proc.devRef .tc main_arg1) = Wv (Proc.devRef .tc main_arg1) := by after_results
theorem s2_arg2 : StableHlo.after hostOps0_2 Wv (Proc.devRef .tc main_arg2) = Wv (Proc.devRef .tc main_arg2) := by after_results
theorem s2_arg3 : StableHlo.after hostOps0_2 Wv (Proc.devRef .tc main_arg3) = Wv (Proc.devRef .tc main_arg3) := by after_results
theorem s2_arg4 : StableHlo.after hostOps0_2 Wv (Proc.devRef .tc main_arg4) = Wv (Proc.devRef .tc main_arg4) := by after_results
theorem s2_arg5 : StableHlo.after hostOps0_2 Wv (Proc.devRef .tc main_arg5) = Wv (Proc.devRef .tc main_arg5) := by after_results
theorem s2_arg6 : StableHlo.after hostOps0_2 Wv (Proc.devRef .tc main_arg6) = Wv (Proc.devRef .tc main_arg6) := by after_results
theorem s2_arg7 : StableHlo.after hostOps0_2 Wv (Proc.devRef .tc main_arg7) = Wv (Proc.devRef .tc main_arg7) := by after_results
theorem s2_arg8 : StableHlo.after hostOps0_2 Wv (Proc.devRef .tc main_arg8) = Wv (Proc.devRef .tc main_arg8) := by after_results

set_option maxHeartbeats 2000000 in
/-- The second layer's aggregate: the same chain, applied to the first region's result. -/
theorem s3_v37 : StableHlo.after hostOps1 Wv (Proc.devRef .tc main_v37)
    = (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (Wv (Proc.devRef .tc main_arg2))) (Host.gather gather_S100000x64_S1600000x1_S1600000x64_1_0_n_n_0_1_164 (Wv (Proc.devRef .tc main_v25)) (broadcastInDim S1600000x1 ![0] bcast_S1600000_S1600000x1_0 (select (cmpi .slt (Wv (Proc.devRef .tc main_arg1)) (broadcastInDim S1600000 ![] bcast_S_S1600000 (constantI S_ 32 0#32))) (addi (Wv (Proc.devRef .tc main_arg1)) (broadcastInDim S1600000 ![] bcast_S_S1600000 (constantI S_ 32 100000#32))) (Wv (Proc.devRef .tc main_arg1)))))) (broadcastInDim S100000x64 ![0, 1] bcast_S100000x1_S100000x64_0_1 (Wv (Proc.devRef .tc main_v11))) : (⟨S100000x64, .f32⟩ : BufTy).Contents (Elt F)) := by
  after_results_simp
/-- The second bias as a row. -/
theorem s3_v38 : StableHlo.after hostOps1 Wv (Proc.devRef .tc main_v38)
    = (shapeCast S1x64 (Wv (Proc.devRef .tc main_arg8)) shapeCasts_S64_S1x64 : (⟨S1x64, .f32⟩ : BufTy).Contents (Elt F)) := by
  after_results
  try rfl
theorem s3_v25 : StableHlo.after hostOps1 Wv (Proc.devRef .tc main_v25) = Wv (Proc.devRef .tc main_v25) := by after_results
theorem s3_arg6 : StableHlo.after hostOps1 Wv (Proc.devRef .tc main_arg6) = Wv (Proc.devRef .tc main_arg6) := by after_results
theorem s3_arg7 : StableHlo.after hostOps1 Wv (Proc.devRef .tc main_arg7) = Wv (Proc.devRef .tc main_arg7) := by after_results

end Stretches

end Cert.KernelIdeal.Hand

end
-- ==== Proof.KernelResult.lean ====
/-
  The kernel program's result array: both layers of the arguments.

  Read along @main's boundaries. After the first three stretches the first region is entered with the features, their
  aggregate, the first layer's weights and the first bias as a row, so it leaves the hidden features; the stretch between
  the regions keeps them, aggregates them by the same chain and lays out the second bias; the second region is entered
  with the hidden features, their aggregate and the second layer's weights, and leaves the result.
-/
import proofs.«121556_j89850715833230_1_alg».proof.Proof.KernelValue

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.SageSpec Idealize.ShloMosaic.ValueIdx Cert.Sage

variable (m : (ℓ : Loc nD τ sig) → Buf (Elt Ideal) ℓ) (ρ : Dev nD → PrngReg)

/-! ## The arguments at each boundary: no host operation writes one -/

theorem W1_arg0 (c : Dev nD) : W1 m ρ c (Proc.devRef .tc main_arg0) = m ((c : Thread nD τ).loc main_arg0) :=
  (s0_arg0 (W0 m ρ c)).trans ((rfl : W0 m ρ c (Proc.devRef .tc main_arg0) = m ((c : Thread nD τ).loc main_arg0)))
theorem W1_arg1 (c : Dev nD) : W1 m ρ c (Proc.devRef .tc main_arg1) = m ((c : Thread nD τ).loc main_arg1) :=
  (s0_arg1 (W0 m ρ c)).trans ((rfl : W0 m ρ c (Proc.devRef .tc main_arg1) = m ((c : Thread nD τ).loc main_arg1)))
theorem W1_arg2 (c : Dev nD) : W1 m ρ c (Proc.devRef .tc main_arg2) = m ((c : Thread nD τ).loc main_arg2) :=
  (s0_arg2 (W0 m ρ c)).trans ((rfl : W0 m ρ c (Proc.devRef .tc main_arg2) = m ((c : Thread nD τ).loc main_arg2)))
theorem W1_arg3 (c : Dev nD) : W1 m ρ c (Proc.devRef .tc main_arg3) = m ((c : Thread nD τ).loc main_arg3) :=
  (s0_arg3 (W0 m ρ c)).trans ((rfl : W0 m ρ c (Proc.devRef .tc main_arg3) = m ((c : Thread nD τ).loc main_arg3)))
theorem W1_arg4 (c : Dev nD) : W1 m ρ c (Proc.devRef .tc main_arg4) = m ((c : Thread nD τ).loc main_arg4) :=
  (s0_arg4 (W0 m ρ c)).trans ((rfl : W0 m ρ c (Proc.devRef .tc main_arg4) = m ((c : Thread nD τ).loc main_arg4)))
theorem W1_arg5 (c : Dev nD) : W1 m ρ c (Proc.devRef .tc main_arg5) = m ((c : Thread nD τ).loc main_arg5) :=
  (s0_arg5 (W0 m ρ c)).trans ((rfl : W0 m ρ c (Proc.devRef .tc main_arg5) = m ((c : Thread nD τ).loc main_arg5)))
theorem W1_arg6 (c : Dev nD) : W1 m ρ c (Proc.devRef .tc main_arg6) = m ((c : Thread nD τ).loc main_arg6) :=
  (s0_arg6 (W0 m ρ c)).trans ((rfl : W0 m ρ c (Proc.devRef .tc main_arg6) = m ((c : Thread nD τ).loc main_arg6)))
theorem W1_arg7 (c : Dev nD) : W1 m ρ c (Proc.devRef .tc main_arg7) = m ((c : Thread nD τ).loc main_arg7) :=
  (s0_arg7 (W0 m ρ c)).trans ((rfl : W0 m ρ c (Proc.devRef .tc main_arg7) = m ((c : Thread nD τ).loc main_arg7)))
theorem W1_arg8 (c : Dev nD) : W1 m ρ c (Proc.devRef .tc main_arg8) = m ((c : Thread nD τ).loc main_arg8) :=
  (s0_arg8 (W0 m ρ c)).trans ((rfl : W0 m ρ c (Proc.devRef .tc main_arg8) = m ((c : Thread nD τ).loc main_arg8)))
theorem W2_arg0 (c : Dev nD) : W2 m ρ c (Proc.devRef .tc main_arg0) = m ((c : Thread nD τ).loc main_arg0) :=
  (s1_arg0 (W1 m ρ c)).trans (W1_arg0 m ρ c)
theorem W2_arg1 (c : Dev nD) : W2 m ρ c (Proc.devRef .tc main_arg1) = m ((c : Thread nD τ).loc main_arg1) :=
  (s1_arg1 (W1 m ρ c)).trans (W1_arg1 m ρ c)
theorem W2_arg2 (c : Dev nD) : W2 m ρ c (Proc.devRef .tc main_arg2) = m ((c : Thread nD τ).loc main_arg2) :=
  (s1_arg2 (W1 m ρ c)).trans (W1_arg2 m ρ c)
theorem W2_arg3 (c : Dev nD) : W2 m ρ c (Proc.devRef .tc main_arg3) = m ((c : Thread nD τ).loc main_arg3) :=
  (s1_arg3 (W1 m ρ c)).trans (W1_arg3 m ρ c)
theorem W2_arg4 (c : Dev nD) : W2 m ρ c (Proc.devRef .tc main_arg4) = m ((c : Thread nD τ).loc main_arg4) :=
  (s1_arg4 (W1 m ρ c)).trans (W1_arg4 m ρ c)
theorem W2_arg5 (c : Dev nD) : W2 m ρ c (Proc.devRef .tc main_arg5) = m ((c : Thread nD τ).loc main_arg5) :=
  (s1_arg5 (W1 m ρ c)).trans (W1_arg5 m ρ c)
theorem W2_arg6 (c : Dev nD) : W2 m ρ c (Proc.devRef .tc main_arg6) = m ((c : Thread nD τ).loc main_arg6) :=
  (s1_arg6 (W1 m ρ c)).trans (W1_arg6 m ρ c)
theorem W2_arg7 (c : Dev nD) : W2 m ρ c (Proc.devRef .tc main_arg7) = m ((c : Thread nD τ).loc main_arg7) :=
  (s1_arg7 (W1 m ρ c)).trans (W1_arg7 m ρ c)
theorem W2_arg8 (c : Dev nD) : W2 m ρ c (Proc.devRef .tc main_arg8) = m ((c : Thread nD τ).loc main_arg8) :=
  (s1_arg8 (W1 m ρ c)).trans (W1_arg8 m ρ c)
theorem W3_arg0 (c : Dev nD) : W3 m ρ c (Proc.devRef .tc main_arg0) = m ((c : Thread nD τ).loc main_arg0) :=
  (s2_arg0 (W2 m ρ c)).trans (W2_arg0 m ρ c)
theorem W3_arg1 (c : Dev nD) : W3 m ρ c (Proc.devRef .tc main_arg1) = m ((c : Thread nD τ).loc main_arg1) :=
  (s2_arg1 (W2 m ρ c)).trans (W2_arg1 m ρ c)
theorem W3_arg2 (c : Dev nD) : W3 m ρ c (Proc.devRef .tc main_arg2) = m ((c : Thread nD τ).loc main_arg2) :=
  (s2_arg2 (W2 m ρ c)).trans (W2_arg2 m ρ c)
theorem W3_arg3 (c : Dev nD) : W3 m ρ c (Proc.devRef .tc main_arg3) = m ((c : Thread nD τ).loc main_arg3) :=
  (s2_arg3 (W2 m ρ c)).trans (W2_arg3 m ρ c)
theorem W3_arg4 (c : Dev nD) : W3 m ρ c (Proc.devRef .tc main_arg4) = m ((c : Thread nD τ).loc main_arg4) :=
  (s2_arg4 (W2 m ρ c)).trans (W2_arg4 m ρ c)
theorem W3_arg5 (c : Dev nD) : W3 m ρ c (Proc.devRef .tc main_arg5) = m ((c : Thread nD τ).loc main_arg5) :=
  (s2_arg5 (W2 m ρ c)).trans (W2_arg5 m ρ c)
theorem W3_arg6 (c : Dev nD) : W3 m ρ c (Proc.devRef .tc main_arg6) = m ((c : Thread nD τ).loc main_arg6) :=
  (s2_arg6 (W2 m ρ c)).trans (W2_arg6 m ρ c)
theorem W3_arg7 (c : Dev nD) : W3 m ρ c (Proc.devRef .tc main_arg7) = m ((c : Thread nD τ).loc main_arg7) :=
  (s2_arg7 (W2 m ρ c)).trans (W2_arg7 m ρ c)
theorem W3_arg8 (c : Dev nD) : W3 m ρ c (Proc.devRef .tc main_arg8) = m ((c : Thread nD τ).loc main_arg8) :=
  (s2_arg8 (W2 m ρ c)).trans (W2_arg8 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg6 (c : Dev nD) : W5 m ρ c (Proc.devRef .tc main_arg6) = m ((c : Thread nD τ).loc main_arg6) :=
  (s3_arg6 (W4 m ρ c)).trans (W4_arg6 m ρ c)
theorem W5_arg7 (c : Dev nD) : W5 m ρ c (Proc.devRef .tc main_arg7) = m ((c : Thread nD τ).loc main_arg7) :=
  (s3_arg7 (W4 m ρ c)).trans (W4_arg7 m ρ c)

/-! ## What the host stretches compute, in the arguments -/

/-- A bias vector as a function of the column. -/
abbrev biasK (b : (⟨S64, .f32⟩ : BufTy).Contents (Elt Ideal)) : Fin 64 → EReal := fun q => b (ix1 q)

/-- A vector reshaped to one row, read at (0, q). -/
theorem biasRow_eq (b : (⟨S64, .f32⟩ : BufTy).Contents (Elt Ideal)) (h : S64.ShapeCasts S1x64) (q : Fin 64) :
    shapeCast S1x64 b h (ix2 0 q) = b (ix1 q) :=
  shapeCast_apply b h (ix2 0 q) (ix1 q) (by
    rw [Shape.rowMajor_val_one, Shape.rowMajor_val_two]; show q.val = 0 * 64 + q.val; omega)

/-- The inverse in-degree, as the first two stretches leave it. -/
theorem W2_v10 (c : Dev nD) : W2 m ρ c (Proc.devRef .tc main_v10) = invDeg (m ((c : Thread nD τ).loc main_arg2)) := by
  refine (s1_v10 (W1 m ρ c)).trans ?_
  rw [show W1 m ρ c (Proc.devRef .tc main_v5) = _ from s0_v5 (W0 m ρ c), show W1 m ρ c (Proc.devRef .tc main_v9) = _ from s0_v9 (W0 m ρ c),
    show W1 m ρ c (Proc.devRef .tc main_cst_4) = _ from s0_cst4 (W0 m ρ c)]
  rfl

/-- Its column, at the first region's entry and after it. -/
theorem W3_v11 (c : Dev nD) : W3 m ρ c (Proc.devRef .tc main_v11) = invDegCol (m ((c : Thread nD τ).loc main_arg2)) := by
  refine (s2_v11 (W2 m ρ c)).trans ?_
  rw [W2_v10]
  rfl
theorem W4_v11 (c : Dev nD) : W4 m ρ c (Proc.devRef .tc main_v11) = invDegCol (m ((c : Thread nD τ).loc main_arg2)) :=
  (W4_of_ne m ρ c main_v11 (by decide)).trans (W3_v11 m ρ c)

/-- The first region is entered with the aggregate of the features. -/
theorem W3_v23 (c : Dev nD) : W3 m ρ c (Proc.devRef .tc main_v23) = agg (m ((c : Thread nD τ).loc main_arg1)) (m ((c : Thread nD τ).loc main_arg2)) (m ((c : Thread nD τ).loc main_arg0)) := by
  refine (s2_v23 (W2 m ρ c)).trans ?_
  rw [W2_arg0, W2_arg1, W2_arg2, W2_v10]
  exact (agg_chain _ _ _).symm

/-- … and with the first bias as a row. -/
theorem W3_v24 (c : Dev nD) : W3 m ρ c (Proc.devRef .tc main_v24) = shapeCast S1x64 (m ((c : Thread nD τ).loc main_arg5)) shapeCasts_S64_S1x64 := by
  refine (s2_v24 (W2 m ρ c)).trans ?_
  rw [W2_arg5]

/-! ## The two regions -/

/-- The first region leaves the hidden features. -/
theorem W4_v25 (c : Dev nD) : W4 m ρ c (Proc.devRef .tc main_v25)
    = Cert.Sage.hidden (agg (m ((c : Thread nD τ).loc main_arg1)) (m ((c : Thread nD τ).loc main_arg2))) (m ((c : Thread nD τ).loc main_arg0)) (m ((c : Thread nD τ).loc main_arg3)) (m ((c : Thread nD τ).loc main_arg4)) (biasK (m ((c : Thread nD τ).loc main_arg5))) := by
  refine (W4_arr m ρ c 5).trans ((final0 (V3 m ρ) c).trans ?_)
  unfold G0 Cert.Sage.hidden
  rw [show V3 m ρ c main_arg0 = _ from W3_arg0 m ρ c, show V3 m ρ c main_v23 = _ from W3_v23 m ρ c,
    show V3 m ρ c main_arg3 = _ from W3_arg3 m ρ c, show V3 m ρ c main_arg4 = _ from W3_arg4 m ρ c,
    show V3 m ρ c main_v24 = _ from W3_v24 m ρ c]
  refine congrArg (layer reluAt _ _ _ _) (funext fun q => ?_)
  exact biasRow_eq _ _ q

/-- The second region is entered with the hidden features, … -/
theorem W5_v25 (c : Dev nD) : W5 m ρ c (Proc.devRef .tc main_v25)
    = Cert.Sage.hidden (agg (m ((c : Thread nD τ).loc main_arg1)) (m ((c : Thread nD τ).loc main_arg2))) (m ((c : Thread nD τ).loc main_arg0)) (m ((c : Thread nD τ).loc main_arg3)) (m ((c : Thread nD τ).loc main_arg4)) (biasK (m ((c : Thread nD τ).loc main_arg5))) :=
  (s3_v25 (W4 m ρ c)).trans (W4_v25 m ρ c)

/-- … their aggregate, by the same chain, … -/
theorem W5_v37 (c : Dev nD) : W5 m ρ c (Proc.devRef .tc main_v37)
    = agg (m ((c : Thread nD τ).loc main_arg1)) (m ((c : Thread nD τ).loc main_arg2)) (Cert.Sage.hidden (agg (m ((c : Thread nD τ).loc main_arg1)) (m ((c : Thread nD τ).loc main_arg2))) (m ((c : Thread nD τ).loc main_arg0)) (m ((c : Thread nD τ).loc main_arg3)) (m ((c : Thread nD τ).loc main_arg4)) (biasK (m ((c : Thread nD τ).loc main_arg5)))) := by
  refine (s3_v37 (W4 m ρ c)).trans ?_
  rw [W4_arg1, W4_arg2, W4_v11, W4_v25]
  exact (agg_chain _ _ _).symm

/-- … and the second bias as a row. -/
theorem W5_v38 (c : Dev nD) : W5 m ρ c (Proc.devRef .tc main_v38) = shapeCast S1x64 (m ((c : Thread nD τ).loc main_arg8)) shapeCasts_S64_S1x64 := by
  refine (s3_v38 (W4 m ρ c)).trans ?_
  rw [W4_arg8]

/-- THE RESULT ARRAY after the run: both layers of the arguments, the program's aggregation the shared function. -/
theorem result_eq (c : Dev nD) : W6 m ρ c (Proc.devRef .tc main_v39)
    = twoLayer (agg (m ((c : Thread nD τ).loc main_arg1)) (m ((c : Thread nD τ).loc main_arg2))) (m ((c : Thread nD τ).loc main_arg0)) (m ((c : Thread nD τ).loc main_arg3)) (m ((c : Thread nD τ).loc main_arg4)) (biasK (m ((c : Thread nD τ).loc main_arg5)))
        (m ((c : Thread nD τ).loc main_arg6)) (m ((c : Thread nD τ).loc main_arg7)) (biasK (m ((c : Thread nD τ).loc main_arg8))) := by
  refine (W6_arr m ρ c 5).trans ((final1 (V5 m ρ) c).trans ?_)
  unfold G1 twoLayer
  rw [show V5 m ρ c main_v25 = _ from W5_v25 m ρ c, show V5 m ρ c main_v37 = _ from W5_v37 m ρ c,
    show V5 m ρ c main_arg6 = _ from W5_arg6 m ρ c, show V5 m ρ c main_arg7 = _ from W5_arg7 m ρ c,
    show V5 m ρ c main_v38 = _ from W5_v38 m ρ c]
  refine congrArg (layer id _ _ _ _) (funext fun q => ?_)
  exact biasRow_eq _ _ q

end Cert.KernelIdeal.Hand

end
-- ==== Proof.RefValue.lean ====
/-
  The reference, stage by stage, is the two-layer function of its arguments.

  The reference's host program computes the inverse in-degree once, then per layer: the aggregate of the layer's input
  (gather, scatter-add, scale), two `dot_general`s with rows-by-columns dimension numbers, their sum, the bias broadcast
  along the rows; the first layer is rectified by a `maximum` against a broadcast zero. Read at (p, q) each
  `dot_general` is row p against column q, the broadcast bias is its entry q, and the aggregate stages are the program's
  aggregation applied to the layer's input: to `x` in the first layer, to the hidden features in the second.
-/
import proofs.«121556_j89850715833230_1_alg».proof.Proof.RefRead
import proofs.«121556_j89850715833230_1_alg».proof.Proof.TwoLayer
import proofs.«121556_j89850715833230_1_alg».proof.Proof.Aggregate

noncomputable section

namespace Cert.ReferenceIdeal.Hand

open Cert.ReferenceIdeal Cert.ReferenceIdeal.ReadP Idealize.ShloMosaic
open Idealize.ShloMosaic.SageSpec Idealize.ShloMosaic.ValueIdx Cert.Sage

section
variable {F : FTy → Type} [FloatOps F]

/-- The first layer's aggregate stage is the aggregation of the features. -/
theorem v23_eq (x0 : (⟨S100000x64, .f32⟩ : BufTy).Contents (Elt F)) (x1 x2 : (⟨S1600000, .i32⟩ : BufTy).Contents (Elt F)) :
    val_main_v23 (F := F) x0 x1 x2 = agg x1 x2 x0 := rfl

/-- The second layer's aggregate stage is the SAME aggregation, of the hidden features. -/
theorem v42_eq (x0 : (⟨S100000x64, .f32⟩ : BufTy).Contents (Elt F)) (x1 x2 : (⟨S1600000, .i32⟩ : BufTy).Contents (Elt F)) (x3 x4 : (⟨S64x64, .f32⟩ : BufTy).Contents (Elt F)) (x5 : (⟨S64, .f32⟩ : BufTy).Contents (Elt F)) :
    val_main_v42 (F := F) x0 x1 x2 x3 x4 x5 = agg x1 x2 (val_main_v30 (F := F) x0 x1 x2 x3 x4 x5) := rfl
end

/-- A bias vector as a function of the column. -/
abbrev biasOf (b : (⟨S64, .f32⟩ : BufTy).Contents (Elt Ideal)) : Fin 64 → EReal := fun q => b (ix1 q)

/-- The rectified first layer is the hidden features. -/
theorem hidden_eq (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 : (⟨S64, .f32⟩ : BufTy).Contents (Elt Ideal)) :
    val_main_v30 (F := Ideal) x0 x1 x2 x3 x4 x5 = hidden (agg x1 x2) x0 x3 x4 (biasOf x5) := by
  funext i
  obtain ⟨p, q, rfl⟩ : ∃ (p : Fin 100000) (q : Fin 64), i = ix2 p q := ⟨i 0, i 1, eq_ix2 i⟩
  rw [val_main_v30_apply, val_main_v29_apply, val_main_v26_apply, val_main_v24_apply, val_main_v25_apply,
    val_main_v28_apply, val_main_v27_apply, val_main_call1_v0_apply, val_main_call1_cst_apply, v23_eq]
  have hl24 : ∀ k : Fin 64, lidx_main_v24 (ix2 p q) k = ix2 p k := fun k => funext fun a => Fin.ext (by
    match a with
    | ⟨0, _⟩ => rfl
    | ⟨1, _⟩ => rfl)
  have hr24 : ∀ k : Fin 64, ridx_main_v24 (ix2 p q) k = ix2 k q := fun k => funext fun a => Fin.ext (by
    match a with
    | ⟨0, _⟩ => rfl
    | ⟨1, _⟩ => rfl)
  have hl25 : ∀ k : Fin 64, lidx_main_v25 (ix2 p q) k = ix2 p k := fun k => funext fun a => Fin.ext (by
    match a with
    | ⟨0, _⟩ => rfl
    | ⟨1, _⟩ => rfl)
  have hr25 : ∀ k : Fin 64, ridx_main_v25 (ix2 p q) k = ix2 k q := fun k => funext fun a => Fin.ext (by
    match a with
    | ⟨0, _⟩ => rfl
    | ⟨1, _⟩ => rfl)
  have hb : idx_main_v27 (idx_main_v28 (ix2 p q)) = ix1 q := funext fun a => Fin.ext (by
    match a with
    | ⟨0, _⟩ => rfl)
  simp only [hl24, hr24, hl25, hr25, hb]
  rfl

/-- The reference's result is the two-layer function of its arguments. -/
theorem result_eq (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal)) :
    val_main_v48 (F := Ideal) x0 x1 x2 x3 x4 x5 x6 x7 x8 = twoLayer (agg x1 x2) x0 x3 x4 (biasOf x5) x6 x7 (biasOf x8) := by
  funext i
  obtain ⟨p, q, rfl⟩ : ∃ (p : Fin 100000) (q : Fin 64), i = ix2 p q := ⟨i 0, i 1, eq_ix2 i⟩
  rw [val_main_v48_apply, val_main_v45_apply, val_main_v43_apply, val_main_v44_apply,
    val_main_v47_apply, val_main_v46_apply, v42_eq, hidden_eq]
  have hl43 : ∀ k : Fin 64, lidx_main_v43 (ix2 p q) k = ix2 p k := fun k => funext fun a => Fin.ext (by
    match a with
    | ⟨0, _⟩ => rfl
    | ⟨1, _⟩ => rfl)
  have hr43 : ∀ k : Fin 64, ridx_main_v43 (ix2 p q) k = ix2 k q := fun k => funext fun a => Fin.ext (by
    match a with
    | ⟨0, _⟩ => rfl
    | ⟨1, _⟩ => rfl)
  have hl44 : ∀ k : Fin 64, lidx_main_v44 (ix2 p q) k = ix2 p k := fun k => funext fun a => Fin.ext (by
    match a with
    | ⟨0, _⟩ => rfl
    | ⟨1, _⟩ => rfl)
  have hr44 : ∀ k : Fin 64, ridx_main_v44 (ix2 p q) k = ix2 k q := fun k => funext fun a => Fin.ext (by
    match a with
    | ⟨0, _⟩ => rfl
    | ⟨1, _⟩ => rfl)
  have hb : idx_main_v46 (idx_main_v47 (ix2 p q)) = ix1 q := funext fun a => Fin.ext (by
    match a with
    | ⟨0, _⟩ => rfl)
  simp only [hl43, hr43, hl44, hr44, hb]
  rfl

end Cert.ReferenceIdeal.Hand

end
-- ==== Proof.lean ====
/-
  Two mean-aggregating graph layers: a Pallas kernel program against its jnp reference, equal over the extended reals.

  Both programs compute the inverse in-degree of every node once, and then twice — with a rectifier after the first time
  only — a layer `h · Ws + A(h) · Wn + b`, where `A` gathers the rows of `h` at the edges' source nodes, adds them up at
  the destination nodes and scales each row by the inverse in-degree. The reference spells the two products as host
  `dot_general`s; the kernel program keeps `A` on the host, word for word the reference's operations, and computes the
  dense part of each layer in a kernel region, ten row blocks of 10000 nodes, two matrix-unit products into a zero
  accumulator per block. On the extended reals a change of float format is the identity and a matrix product is the sum
  over the contracted axis on the matrix unit and on the host alike, the summands in the same order: so each region
  leaves the layer of its entry arrays, the aggregation is one function on both sides, and the two results are the same
  two-layer function of the arguments. No finiteness is used: the two sides add and multiply in the same order.

  The frames of the two kernel programs are the generated frame certificates; the reference's is its run with the
  result dropped; the ideal pass rewrote nothing, so `preserves` is trivial.
-/
import proofs.«121556_j89850715833230_1_alg».proof.Defs
import proofs.«121556_j89850715833230_1_alg».proof.Proof.Gen.Kernel
import proofs.«121556_j89850715833230_1_alg».proof.Proof.Gen.Kernel.Skeleton
import proofs.«121556_j89850715833230_1_alg».proof.Proof.Gen.Kernel.Launch
import proofs.«121556_j89850715833230_1_alg».proof.Proof.Gen.Kernel.Points
import proofs.«121556_j89850715833230_1_alg».proof.Proof.Gen.Kernel.Frame
import proofs.«121556_j89850715833230_1_alg».proof.Proof.Gen.KernelIdeal
import proofs.«121556_j89850715833230_1_alg».proof.Proof.Gen.KernelIdeal.Skeleton
import proofs.«121556_j89850715833230_1_alg».proof.Proof.Gen.KernelIdeal.Launch
import proofs.«121556_j89850715833230_1_alg».proof.Proof.Gen.KernelIdeal.Points
import proofs.«121556_j89850715833230_1_alg».proof.Proof.Gen.KernelIdeal.Frame
import proofs.«121556_j89850715833230_1_alg».proof.Proof.Gen.ReferenceIdeal
import proofs.«121556_j89850715833230_1_alg».proof.Proof.Gen.Pre_finite_inputs
import proofs.«121556_j89850715833230_1_alg».proof.Proof.KernelRun
import proofs.«121556_j89850715833230_1_alg».proof.Proof.KernelResult
import proofs.«121556_j89850715833230_1_alg».proof.Proof.RefValue
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the two-layer function of the arguments at their result array: the kernel program by its
    regions' layers composed along @main's boundaries, the reference by its stages read at an index; the aggregation in
    between is one function, spelt once per program. -/
theorem algebraic : Cert.algebraic_KernelIdeal_ReferenceIdeal := by
  intro m ρ m' ρ' _ hagree
  refine ⟨fun c => twoLayer (Cert.KernelIdeal.Hand.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (Cert.KernelIdeal.Hand.biasK (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Hand.biasK (m ((c.tc : Thread Cert.KernelIdeal.nD Cert.KernelIdeal.τ).loc Cert.KernelIdeal.main_arg8))), ?_, ?_⟩
  · exact (θ_run Cert.KernelIdeal.defs _ _).mono
      (fun r h c => ⟨(h c).1.trans (Cert.KernelIdeal.Hand.result_eq m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v48_eq, Cert.ReferenceIdeal.Hand.result_eq]
    obtain ⟨e0, e1, e2, e3, e4, e5, e6, e7, e8⟩ := hagree c
    rw [e0, e1, e2, e3, e4, e5, e6, e7, e8]
    have hA : Cert.ReferenceIdeal.Hand.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.KernelIdeal.Hand.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
      funext fun y => (Cert.Sage.agg_eq _ _ y).symm
    rw [hA]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
